-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S16384x4096 : Shape := ⟨2, ![16384, 4096]⟩
abbrev S256 : Shape := ⟨1, ![256]⟩
abbrev S16384 : Shape := ⟨1, ![16384]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S256 : S_.BroadcastsInDim S256 (![] : Fin 0 → Fin S256.rank)
  reducesTo_S256_S_d0 : S256.ReducesTo [0] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S8192x4096 .f32) (main_arg1 : IVec S16384x4096 32) (main_arg2 : FVec F S256 .f32) (main_arg3 : FVec F S16384 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S256 .f32 := Host.absf main_arg2
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S16384 .f32 := Host.absf main_arg3
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S8192x4096 : Shape := ⟨2, ![8192, 4096]⟩
abbrev S16384x4096 : Shape := ⟨2, ![16384, 4096]⟩
abbrev S256 : Shape := ⟨1, ![256]⟩
abbrev S16384 : Shape := ⟨1, ![16384]⟩
abbrev S_ : Shape := ⟨0, ![]⟩
abbrev S16384x4096x1 : Shape := ⟨3, ![16384, 4096, 1]⟩
abbrev S1x16384 : Shape := ⟨2, ![1, 16384]⟩
abbrev S8192x16384 : Shape := ⟨2, ![8192, 16384]⟩
abbrev S512x2048 : Shape := ⟨2, ![512, 2048]⟩
abbrev S2048x2048 : Shape := ⟨2, ![2048, 2048]⟩
abbrev S1x2048 : Shape := ⟨2, ![1, 2048]⟩

abbrev nBuf : Space → Nat
  | .hbm => 17
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S16384x4096, .i32⟩
  | .hbm, ⟨2, _⟩ => ⟨S256, .f32⟩
  | .hbm, ⟨3, _⟩ => ⟨S16384, .f32⟩
  | .hbm, ⟨4, _⟩ => ⟨S_, .i32⟩
  | .hbm, ⟨5, _⟩ => ⟨S16384x4096, .i32⟩
  | .hbm, ⟨6, _⟩ => ⟨S16384x4096, .i1⟩
  | .hbm, ⟨7, _⟩ => ⟨S_, .i32⟩
  | .hbm, ⟨8, _⟩ => ⟨S16384x4096, .i32⟩
  | .hbm, ⟨9, _⟩ => ⟨S16384x4096, .i32⟩
  | .hbm, ⟨10, _⟩ => ⟨S16384x4096, .i32⟩
  | .hbm, ⟨11, _⟩ => ⟨S16384x4096x1, .i32⟩
  | .hbm, ⟨12, _⟩ => ⟨S16384x4096, .f32⟩
  | .hbm, ⟨13, _⟩ => ⟨S16384x4096, .bf16⟩
  | .hbm, ⟨14, _⟩ => ⟨S8192x4096, .bf16⟩
  | .hbm, ⟨15, _⟩ => ⟨S1x16384, .f32⟩
  | .hbm, ⟨16, _⟩ => ⟨S8192x16384, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 8, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S16384x4096 : S_.BroadcastsInDim S16384x4096 (![] : Fin 0 → Fin S16384x4096.rank)
  bcast_S16384x4096_S16384x4096x1_0_1 : S16384x4096.BroadcastsInDim S16384x4096x1 (![0, 1] : Fin 2 → Fin S16384x4096x1.rank)
  bitsLt_bf16_f32 : FTy.bits .bf16 < FTy.bits .f32
  shapeCasts_S16384_S1x16384 : S16384.ShapeCasts S1x16384
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  gather_S256_S16384x4096x1_S16384x4096_n_0_n_n_0_2_1_wf : GatherDims.WF S256 S16384x4096x1 S16384x4096 [] [0] [] [0] [] 2 ![1]
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x4096.size a
  hwx0_0 : ∀ i : grid0.Coords, EltTy.bits .bf16 = 32 ∨ (Rect.block (s := S8192x4096) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S16384x4096.size a
  hwx0_1 : ∀ i : grid0.Coords, EltTy.bits .bf16 = 32 ∨ (Rect.block (s := S16384x4096) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x16384.size a
  hwx0_2 : ∀ i : grid0.Coords, EltTy.bits .f32 = 32 ∨ (Rect.block (s := S1x16384) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x16384.size a
  hwx0_3 : ∀ i : grid0.Coords, EltTy.bits .f32 = 32 ∨ (Rect.block (s := S8192x16384) S512x2048.size (cc0_transform_3 i) (hinb0_3 i)).WholeWords (EltTy.packing .f32)

variable [Facts₀]

def gather_S256_S16384x4096x1_S16384x4096_n_0_n_n_0_2_1 : GatherDims S256 S16384x4096x1 S16384x4096 where
  offsetDims := []
  collapsedSliceDims := [0]
  operandBatchingDims := []
  startIndicesBatchingDims := []
  startIndexMap := [0]
  indexVectorDim := 2
  sliceSizes := ![1]
  wf := gather_S256_S16384x4096x1_S16384x4096_n_0_n_n_0_2_1_wf
def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_v8) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S16384x4096 : Shape := ⟨2, ![16384, 4096]⟩
abbrev S256 : Shape := ⟨1, ![256]⟩
abbrev S16384 : Shape := ⟨1, ![16384]⟩
abbrev S_ : Shape := ⟨0, ![]⟩
abbrev S16384x4096x1 : Shape := ⟨3, ![16384, 4096, 1]⟩
abbrev S8192x16384 : Shape := ⟨2, ![8192, 16384]⟩
abbrev S1x16384 : Shape := ⟨2, ![1, 16384]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S16384x4096, .i32⟩
  | .hbm, ⟨2, _⟩ => ⟨S256, .f32⟩
  | .hbm, ⟨3, _⟩ => ⟨S16384, .f32⟩
  | .hbm, ⟨4, _⟩ => ⟨S_, .i32⟩
  | .hbm, ⟨5, _⟩ => ⟨S16384x4096, .i32⟩
  | .hbm, ⟨6, _⟩ => ⟨S16384x4096, .i1⟩
  | .hbm, ⟨7, _⟩ => ⟨S_, .i32⟩
  | .hbm, ⟨8, _⟩ => ⟨S16384x4096, .i32⟩
  | .hbm, ⟨9, _⟩ => ⟨S16384x4096, .i32⟩
  | .hbm, ⟨10, _⟩ => ⟨S16384x4096, .i32⟩
  | .hbm, ⟨11, _⟩ => ⟨S16384x4096x1, .i32⟩
  | .hbm, ⟨12, _⟩ => ⟨S16384x4096, .f32⟩
  | .hbm, ⟨13, _⟩ => ⟨S8192x16384, .f32⟩
  | .hbm, ⟨14, _⟩ => ⟨S1x16384, .f32⟩
  | .hbm, ⟨15, _⟩ => ⟨S8192x16384, .f32⟩
  | .hbm, ⟨16, _⟩ => ⟨S8192x16384, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S_S16384x4096 : S_.BroadcastsInDim S16384x4096 (![] : Fin 0 → Fin S16384x4096.rank)
  bcast_S16384x4096_S16384x4096x1_0_1 : S16384x4096.BroadcastsInDim S16384x4096x1 (![0, 1] : Fin 2 → Fin S16384x4096x1.rank)
  bcast_S16384_S1x16384_1 : S16384.BroadcastsInDim S1x16384 (![1] : Fin 1 → Fin S1x16384.rank)
  bcast_S1x16384_S8192x16384_0_1 : S1x16384.BroadcastsInDim S8192x16384 (![0, 1] : Fin 2 → Fin S8192x16384.rank)
  gather_S256_S16384x4096x1_S16384x4096_n_0_n_n_0_2_1_wf : GatherDims.WF S256 S16384x4096x1 S16384x4096 [] [0] [] [0] [] 2 ![1]
  dot_S8192x4096_S16384x4096_S8192x16384_1_1_0_0_n_n_wf : DotDims.WF S8192x4096 S16384x4096 S8192x16384 [1] [1] [0] [0] [] []

variable [Facts₀]

def gather_S256_S16384x4096x1_S16384x4096_n_0_n_n_0_2_1 : GatherDims S256 S16384x4096x1 S16384x4096 where
  offsetDims := []
  collapsedSliceDims := [0]
  operandBatchingDims := []
  startIndicesBatchingDims := []
  startIndexMap := [0]
  indexVectorDim := 2
  sliceSizes := ![1]
  wf := gather_S256_S16384x4096x1_S16384x4096_n_0_n_n_0_2_1_wf
def dot_S8192x4096_S16384x4096_S8192x16384_1_1_0_0_n_n : DotDims S8192x4096 S16384x4096 S8192x16384 where
  lhsContracting := [1]
  rhsContracting := [1]
  lhsNonContracting := [0]
  rhsNonContracting := [0]
  lhsBatch := []
  rhsBatch := []
  wf := dot_S8192x4096_S16384x4096_S8192x16384_1_1_0_0_n_n_wf

class Facts : Prop extends Facts₀ where

variable [Facts]
-- ==== Proof.Spec.lean ====
/-
  The linear layer as ONE function of the argument arrays, and the law that joins a contraction
  accumulated in two halves to the whole contraction.

  For activations `x : [8192, 4096]`, dequantized weights `w : [16384, 4096]` and a bias row
  `b : [16384]`, the layer's output at `(t, o)` is `(∑ k < 4096, x (t, k) · w (o, k)) + b o` on the
  extended reals. A kernel that walks the contraction axis in two blocks of 2048 computes
  `((0 + ∑ k < 2048, x (t, k) · w (o, k)) + ∑ k < 2048, x (t, 2048 + k) · w (o, 2048 + k)) + b o`; the two
  agree because addition on the extended reals is commutative and associative with neutral `0`
  (an additive commutative monoid: a sum over `Fin (2048 + 2048)` is the sum of its two halves) —
  no distributivity or cancellation is used, so the infinities need no care.
-/
import Idealize.ShloMosaic.PureOps.Ideal
import Idealize.ShloMosaic.Lib.ValueIdx

noncomputable section

namespace Cert.PalettizedLinear

open Idealize.ShloMosaic Idealize.ShloMosaic.ValueIdx

/-- The layer: `y (t, o) = (∑ k, x (t, k) · w (o, k)) + b o`, the weight matrix contracted over its LAST axis
    (`x · wᵀ`), index by index on the extended reals. -/
def linear (x : (⟨2, ![8192, 4096]⟩ : Shape).Idx → EReal) (w : (⟨2, ![16384, 4096]⟩ : Shape).Idx → EReal)
    (b : (⟨1, ![16384]⟩ : Shape).Idx → EReal) : (⟨2, ![8192, 16384]⟩ : Shape).Idx → EReal :=
  fun i => (∑ k : Fin 4096, x (ix2 (i 0) k) * w (ix2 (i 1) k)) + b (ix1 (i 1))

/-- A sum over the 4096 contraction indices is the sum over the first 2048 plus the sum over the last 2048,
    in any additive commutative monoid. -/
theorem sum_two_halves {M : Type*} [AddCommMonoid M] (f : Fin 4096 → M) :
    ∑ k : Fin 4096, f k
      = (∑ k : Fin 2048, f ⟨k.val, by omega⟩) + ∑ k : Fin 2048, f ⟨2048 + k.val, by omega⟩ :=
  Fin.sum_univ_add (a := 2048) (b := 2048) f

/-- What the two-block accumulation leaves: starting from `0`, adding the first half's partial contraction, then the
    second half's, then the bias, is the whole contraction plus the bias. -/
theorem two_block_accumulation (f : Fin 4096 → EReal) (b : EReal) :
    ((0 + ∑ k : Fin 2048, f ⟨k.val, by omega⟩) + ∑ k : Fin 2048, f ⟨2048 + k.val, by omega⟩) + b
      = (∑ k : Fin 4096, f k) + b := by
  rw [zero_add, sum_two_halves f]

end Cert.PalettizedLinear

end
-- ==== Proof.BodyValue.lean ====
/-
  The kernel body's arithmetic, read at an index of the output block, at the ideal instance.

  One visit of the body adds to the accumulator block the product of a `[512, 2048]` block of activations with a
  `[2048, 2048]` block of weights contracted over the LAST axis of both: at `(r, c)` the sum over `k < 2048` of
  `x (r, k) · w (c, k)`. The first visit of an output block starts from the zero block, the last visit adds the
  bias row `[1, 2048]`, broadcast down the 512 rows, to what it stores. Two visits therefore leave, at `(r, c)`,
  `((0 + ∑ k, xa (r, k) · wa (c, k)) + ∑ k, xb (r, k) · wb (c, k)) + b (0, c)`.
-/
import proofs.«151897_j51264729645538_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen
open Idealize.ShloMosaic Idealize.ShloMosaic.ValueIdx

/-! ## Which operand entries the block product reads -/

theorem lhs_axis0 (i : S512x2048.Idx) (q : dot_S512x2048_S2048x2048_S512x2048_1_1_0_0_n_n.contr.Idx) :
    (dot_S512x2048_S2048x2048_S512x2048_1_1_0_0_n_n.lhsIdx i q 0).val = (i 0).val := by
  unfold DotDims.lhsIdx
  rw [dif_neg (show ¬(0 : Fin S512x2048.rank) ∈ dot_S512x2048_S2048x2048_S512x2048_1_1_0_0_n_n.lhsBatch by decide), dif_pos (show (0 : Fin S512x2048.rank) ∈ dot_S512x2048_S2048x2048_S512x2048_1_1_0_0_n_n.lhsNonContracting by decide)]
  rfl
theorem lhs_axis1 (i : S512x2048.Idx) (q : dot_S512x2048_S2048x2048_S512x2048_1_1_0_0_n_n.contr.Idx) :
    (dot_S512x2048_S2048x2048_S512x2048_1_1_0_0_n_n.lhsIdx i q 1).val = (q ⟨0, by decide⟩).val :=
  dot_S512x2048_S2048x2048_S512x2048_1_1_0_0_n_n.lhsIdx_val_of_single rfl i q
theorem rhs_axis0 (i : S512x2048.Idx) (q : dot_S512x2048_S2048x2048_S512x2048_1_1_0_0_n_n.contr.Idx) :
    (dot_S512x2048_S2048x2048_S512x2048_1_1_0_0_n_n.rhsIdx i q 0).val = (i 1).val := by
  unfold DotDims.rhsIdx
  rw [dif_neg (show ¬(0 : Fin S2048x2048.rank) ∈ dot_S512x2048_S2048x2048_S512x2048_1_1_0_0_n_n.rhsBatch by decide), dif_pos (show (0 : Fin S2048x2048.rank) ∈ dot_S512x2048_S2048x2048_S512x2048_1_1_0_0_n_n.rhsNonContracting by decide)]
  rfl
theorem rhs_axis1 (i : S512x2048.Idx) (q : dot_S512x2048_S2048x2048_S512x2048_1_1_0_0_n_n.contr.Idx) :
    (dot_S512x2048_S2048x2048_S512x2048_1_1_0_0_n_n.rhsIdx i q 1).val = (q ⟨0, by decide⟩).val :=
  dot_S512x2048_S2048x2048_S512x2048_1_1_0_0_n_n.rhsIdx_val_of_single rfl i q

/-- The block product into the zero accumulator, at `(r, c)`: the sum over the 2048 contraction indices of
    `x (r, k) · w (c, k)` — both operands are read along their last axis. -/
theorem block_product_apply (x : FVec Ideal S512x2048 .bf16) (w : FVec Ideal S2048x2048 .bf16) (r : Fin 512) (c : Fin 2048) :
    matmul (F := Ideal) dot_S512x2048_S2048x2048_S512x2048_1_1_0_0_n_n none x w (constant (F := Ideal) S512x2048 .f32 0x00000000#32) (ix2 r c)
      = ∑ k : Fin 2048, x (ix2 r k) * w (ix2 c k) := by
  simp only [matmul]
  rw [Ideal.matmul_constant_zero_apply, ← Equiv.sum_comp (contrEquiv1 dot_S512x2048_S2048x2048_S512x2048_1_1_0_0_n_n 2048 rfl rfl).symm]
  refine Finset.sum_congr rfl fun k _ => ?_
  have hk := contrEquiv1_symm_val dot_S512x2048_S2048x2048_S512x2048_1_1_0_0_n_n 2048 rfl rfl k
  have el : dot_S512x2048_S2048x2048_S512x2048_1_1_0_0_n_n.lhsIdx (ix2 r c) ((contrEquiv1 dot_S512x2048_S2048x2048_S512x2048_1_1_0_0_n_n 2048 rfl rfl).symm k) = ix2 r k := funext fun a => Fin.ext (by
    match a with
    | ⟨0, _⟩ => exact lhs_axis0 _ _
    | ⟨1, _⟩ => exact (lhs_axis1 _ _).trans hk)
  have er : dot_S512x2048_S2048x2048_S512x2048_1_1_0_0_n_n.rhsIdx (ix2 r c) ((contrEquiv1 dot_S512x2048_S2048x2048_S512x2048_1_1_0_0_n_n 2048 rfl rfl).symm k) = ix2 c k := funext fun a => Fin.ext (by
    match a with
    | ⟨0, _⟩ => exact rhs_axis0 _ _
    | ⟨1, _⟩ => exact (rhs_axis1 _ _).trans hk)
  rw [el, er]

/-! ## The three stored values at an index -/

/-- The reset stores the zero block. -/
theorem reset_apply (j : S512x2048.Idx) : k0_pay1 (F := Ideal) j = 0 := by
  unfold k0_pay1
  rw [shapeCast_self]
  exact Ideal.ofBits_zero_f32

/-- One visit leaves the accumulator plus the block product. -/
theorem accumulate_apply (acc : Vec Ideal S512x2048 .f32) (x : Vec Ideal S512x2048 .bf16) (w : Vec Ideal S2048x2048 .bf16)
    (r : Fin 512) (c : Fin 2048) :
    k0_pay2 (F := Ideal) acc x w (ix2 r c) = acc (ix2 r c) + ∑ k : Fin 2048, x (ix2 r k) * w (ix2 c k) := by
  unfold k0_pay2
  rw [shapeCast_self, shapeCast_self, shapeCast_self]
  show acc (ix2 r c) + matmul (F := Ideal) dot_S512x2048_S2048x2048_S512x2048_1_1_0_0_n_n none x w (constant (F := Ideal) S512x2048 .f32 0x00000000#32) (ix2 r c) = _
  rw [block_product_apply]

/-- The last visit stores the accumulator plus the bias row, the same row for each of the 512 rows. -/
theorem add_bias_apply (acc : Vec Ideal S512x2048 .f32) (b : Vec Ideal S1x2048 .f32) (r : Fin 512) (c : Fin 2048) :
    k0_pay3 (F := Ideal) acc b (ix2 r c) = acc (ix2 r c) + b (ix2 0 c) := by
  unfold k0_pay3
  rw [shapeCast_self]
  show acc (ix2 r c) + broadcastTo S512x2048 b broadcasts_S1x2048_S512x2048 (ix2 r c) = _
  rw [broadcastTo_apply b broadcasts_S1x2048_S512x2048 (ix2 r c) (ix2 0 c) (fun a => by
    match a with
    | ⟨0, _⟩ => rfl
    | ⟨1, _⟩ => rfl)]

/-- Two visits from the reset, then the bias: what the body stores into the output block at its last visit. -/
theorem two_visits_apply (xa xb : Vec Ideal S512x2048 .bf16) (wa wb : Vec Ideal S2048x2048 .bf16) (b : Vec Ideal S1x2048 .f32)
    (r : Fin 512) (c : Fin 2048) :
    k0_pay3 (F := Ideal) (k0_pay2 (k0_pay2 k0_pay1 xa wa) xb wb) b (ix2 r c)
      = ((0 + ∑ k : Fin 2048, xa (ix2 r k) * wa (ix2 c k)) + ∑ k : Fin 2048, xb (ix2 r k) * wb (ix2 c k)) + b (ix2 0 c) := by
  rw [add_bias_apply, accumulate_apply, accumulate_apply, reset_apply]

end Cert.KernelIdeal.Body

end
-- ==== Proof.Pieces.lean ====
/-
  What one visit of the body leaves behind, as values of the blocks it was given.

  At the FIRST visit of an output block (contraction step 0) the body stores the zero block into the accumulator,
  reads it back, and stores the accumulator plus the block product: the accumulator ends at
  `accumulate (zero) x w`, whatever it held before. At the LAST visit (contraction step 1) the accumulator holds
  what the visit before left (`acc`); the body stores `accumulate acc x w` into it, reads that back, and stores
  it plus the bias row into the output block. Each store covers its whole buffer, so what a buffer ends holding is
  the last store's value, and a load after a store of the same buffer reads that store's value.
-/
import proofs.«151897_j51264729645538_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

/-- Every load and store of the body starts at the origin of its buffer. -/
theorem origin : (![0, 0] : Fin 2 → Nat) = fun _ => 0 :=
  funext fun a => by match a with | ⟨0, _⟩ => rfl | ⟨1, _⟩ => rfl

/-- After the first visit the accumulator holds the zero block plus the block product of the visit's blocks. -/
theorem accumulator_after_first_visit (c : Dev nD) (i : grid0.Coords) (a3 : Memref sig .tc .vmem S512x2048 .bf16) (h3 : a3.IsWhole) (a4 : Memref sig .tc .vmem S2048x2048 .bf16) (h4 : a4.IsWhole) (a5 : Memref sig .tc .vmem S1x2048 .f32) (h5 : a5.IsWhole) (a6 : Memref sig .tc .vmem S512x2048 .f32) (h6 : a6.IsWhole) (a7 : Memref sig .tc .vmem S512x2048 .f32) (h7 : a7.IsWhole) (hc0 : cond0_0 i) (hc1 : ¬cond0_1 i)
    (x0 : Vec F S512x2048 .bf16) (x1 : Vec F S2048x2048 .bf16) (x2 : Vec F S1x2048 .f32) :
    sout0_A_0 c i a3 h3 a4 h4 a5 h5 a6 h6 a7 h7 hc0 hc1 x0 x1 x2 = k0_pay2 k0_pay1 x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S512x2048) origin, View.readCov_unit_zero (S := S512x2048) _ origin]
  simp only [View.readAt_eq_ld, h3.read_unread, h4.read_unread, View.ld_unit_zero (S := S512x2048) origin,
    View.ld_unit_zero (S := S2048x2048) origin]

/-- After the last visit the output block holds the accumulator the visit found, plus this visit's block product,
    plus the bias row. -/
theorem output_after_last_visit (c : Dev nD) (i : grid0.Coords) (a3 : Memref sig .tc .vmem S512x2048 .bf16) (h3 : a3.IsWhole) (a4 : Memref sig .tc .vmem S2048x2048 .bf16) (h4 : a4.IsWhole) (a5 : Memref sig .tc .vmem S1x2048 .f32) (h5 : a5.IsWhole) (a6 : Memref sig .tc .vmem S512x2048 .f32) (h6 : a6.IsWhole) (a7 : Memref sig .tc .vmem S512x2048 .f32) (h7 : a7.IsWhole) (hc0 : ¬cond0_0 i) (hc1 : cond0_1 i)
    (x0 : Vec F S512x2048 .bf16) (x1 : Vec F S2048x2048 .bf16) (x2 : Vec F S1x2048 .f32) (xs0 : Vec F S512x2048 .f32) :
    out0_B_3 c i a3 h3 a4 h4 a5 h5 a6 h6 a7 h7 hc0 hc1 x0 x1 x2 xs0 = k0_pay3 (k0_pay2 xs0 x0 x1) x2 := by
  unfold out0_B_3
  rw [View.read_writes_eq_canon _ _ _ (cover0_B_3 c i a3 h3 a4 h4 a5 h5 a6 h6 a7 h7 hc0 hc1 x0 x1 x2 xs0)]
  unfold kernelRun0_B
  dsimp only
  sl_unfold_words
  rw [View.canon_unit_zero origin]
  simp only [View.readCov_unit_zero (S := S512x2048) _ origin, View.readAt_eq_ld, h3.read_unread, h4.read_unread,
    h5.read_unread, h7.read_unread, View.ld_unit_zero (S := S512x2048) origin,
    View.ld_unit_zero (S := S2048x2048) origin, View.ld_unit_zero (S := S1x2048) origin]

end Cert.KernelIdeal.Pieces

end
-- ==== Proof.Blocks.lean ====
/-
  The arrays the kernel region finds, and the blocks it is handed at each grid point.

  Before the region the host operations prepare three arrays: the activations rounded to bf16 (at the ideal
  instance a change of format is the identity, so this is the activation argument itself), the dequantized
  weights (the table gathered at the wrapped indices, then rounded to bf16: again the gathered array itself), and
  the bias laid out as one row `[1, 16384]`.

  The grid is `16 × 8 × 2`, the last axis fastest: point `t` is output-row block `t / 16`, output-column block
  `(t / 2) % 8`, contraction step `t % 2`. At point `t` the body is handed rows `512 · (t / 16) + r` and columns
  `2048 · (t % 2) + k` of the activations; rows `2048 · ((t / 2) % 8) + c` and the same columns of the weights; and
  columns `2048 · ((t / 2) % 8) + c` of the bias row.
-/
import proofs.«151897_j51264729645538_1_alg».proof.Proof.Gen.KernelIdeal.Frame
import Idealize.ShloMosaic.Lib.Pipeline.Value
import Idealize.ShloMosaic.Lib.StableHlo.Run
import Idealize.ShloMosaic.Lib.ValueIdx
import Idealize.ShloMosaic.PureOps.Ideal

noncomputable section

namespace Cert.KernelIdeal.Blocks

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ)

/-! ## The staged arrays and the blocks, at their literal types -/

/-- The activations as the region finds them. -/
abbrev xarr (c : Dev nD) : S8192x4096.Idx → EReal := V m c main_v8
/-- The dequantized weights as the region finds them. -/
abbrev warr (c : Dev nD) : S16384x4096.Idx → EReal := V m c main_v7
/-- The bias row as the region finds it. -/
abbrev barr (c : Dev nD) : S1x16384.Idx → EReal := V m c main_v9

/-- The activation block, the weight block and the bias block the body is handed at point `t`. -/
abbrev xblk (c : Dev nD) (t : Fin cfg0.N) : Vec Ideal S512x2048 .bf16 := iblk m c 0 t
abbrev wblk (c : Dev nD) (t : Fin cfg0.N) : Vec Ideal S2048x2048 .bf16 := iblk m c 1 t
abbrev bblk (c : Dev nD) (t : Fin cfg0.N) : Vec Ideal S1x2048 .f32 := iblk m c 2 t

/-! ## The host prefix, read back -/

/-- Rounding to bf16 is the identity on the extended reals: the region finds the activation argument. -/
theorem xarr_eq (c : Dev nD) : xarr m c = m ((c : Thread nD τ).loc main_arg0) := by
  dsimp only [xarr, V, hostOps0]; after_results; rfl

/-- The region finds the table gathered at the indices, negative ones wrapped by the table's length. -/
theorem warr_eq (c : Dev nD) : warr m c
    = Host.gather gather_S256_S16384x4096x1_S16384x4096_n_0_n_n_0_2_1 (m ((c : Thread nD τ).loc main_arg2))
        (broadcastInDim S16384x4096x1 ![0, 1] bcast_S16384x4096_S16384x4096x1_0_1
          (select (cmpi .slt (m ((c : Thread nD τ).loc main_arg1)) (broadcastInDim S16384x4096 ![] bcast_S_S16384x4096 (constantI S_ 32 0#32)))
            (addi (m ((c : Thread nD τ).loc main_arg1)) (broadcastInDim S16384x4096 ![] bcast_S_S16384x4096 (constantI S_ 32 256#32)))
            (m ((c : Thread nD τ).loc main_arg1)))) := by
  dsimp only [warr, V, hostOps0]; after_results; rfl

/-- The bias row at column `o` is the bias at `o`. -/
theorem barr_apply (c : Dev nD) (o : Fin 16384) : barr m c (ix2 0 o) = m ((c : Thread nD τ).loc main_arg3) (ix1 o) := by
  have e : barr m c = shapeCast S1x16384 (m ((c : Thread nD τ).loc main_arg3)) shapeCasts_S16384_S1x16384 := by
    dsimp only [barr, V, hostOps0]; after_results; rfl
  rw [e]
  exact shapeCast_apply _ shapeCasts_S16384_S1x16384 (ix2 0 o) (ix1 o) (by
    rw [Shape.rowMajor_val_two, Shape.rowMajor_val_one]; show o.val = 0 * 16384 + o.val; omega)

/-! ## The index maps over the grid -/

/-- Which block of each array point `t` is handed, decided over the 256 points. -/
theorem index_maps : ∀ t : Fin cfg0.N,
    win0_0.index t (0 : Fin 2) = t.val / 16 ∧ win0_0.index t (1 : Fin 2) = t.val % 2
    ∧ win0_1.index t (0 : Fin 2) = t.val / 2 % 8 ∧ win0_1.index t (1 : Fin 2) = t.val % 2
    ∧ win0_2.index t (0 : Fin 2) = 0 ∧ win0_2.index t (1 : Fin 2) = t.val / 2 % 8
    ∧ win0_3.index t (0 : Fin 2) = t.val / 16 ∧ win0_3.index t (1 : Fin 2) = t.val / 2 % 8 :=
  (by decide +kernel : ∀ t : Fin grid0.N, _)

/-! ## A block's entry is its array's entry -/

theorem xblk_apply (c : Dev nD) (t : Fin cfg0.N) (r : Fin 512) (k : Fin 2048) (p : Fin 8192) (q : Fin 4096)
    (hp : p.val = 512 * (t.val / 16) + r.val) (hq : q.val = 2048 * (t.val % 2) + k.val) :
    xblk m c t (ix2 r k) = xarr m c (ix2 p q) := by
  obtain ⟨e0, e1, -⟩ := index_maps t
  show xarr m c (((cfg0.win 0).blk t).view.emb (ix2 r k)) = xarr m c (ix2 p q)
  refine congrArg (xarr m c) (funext fun a => Fin.ext ?_)
  match a with
  | ⟨0, _⟩ => show win0_0.index t (0 : Fin 2) * 512 + 1 * r.val = p.val; rw [e0, hp]; omega
  | ⟨1, _⟩ => show win0_0.index t (1 : Fin 2) * 2048 + 1 * k.val = q.val; rw [e1, hq]; omega

theorem wblk_apply (c : Dev nD) (t : Fin cfg0.N) (cc : Fin 2048) (k : Fin 2048) (o : Fin 16384) (q : Fin 4096)
    (ho : o.val = 2048 * (t.val / 2 % 8) + cc.val) (hq : q.val = 2048 * (t.val % 2) + k.val) :
    wblk m c t (ix2 cc k) = warr m c (ix2 o q) := by
  obtain ⟨-, -, e0, e1, -⟩ := index_maps t
  show warr m c (((cfg0.win 1).blk t).view.emb (ix2 cc k)) = warr m c (ix2 o q)
  refine congrArg (warr m c) (funext fun a => Fin.ext ?_)
  match a with
  | ⟨0, _⟩ => show win0_1.index t (0 : Fin 2) * 2048 + 1 * cc.val = o.val; rw [e0, ho]; omega
  | ⟨1, _⟩ => show win0_1.index t (1 : Fin 2) * 2048 + 1 * k.val = q.val; rw [e1, hq]; omega

theorem bblk_apply (c : Dev nD) (t : Fin cfg0.N) (cc : Fin 2048) (o : Fin 16384)
    (ho : o.val = 2048 * (t.val / 2 % 8) + cc.val) :
    bblk m c t (ix2 0 cc) = barr m c (ix2 0 o) := by
  obtain ⟨-, -, -, -, e0, e1, -⟩ := index_maps t
  show barr m c (((cfg0.win 2).blk t).view.emb (ix2 0 cc)) = barr m c (ix2 0 o)
  refine congrArg (barr m c) (funext fun a => Fin.ext ?_)
  match a with
  | ⟨0, _⟩ => show win0_2.index t (0 : Fin 2) * 1 + 1 * 0 = 0; rw [e0]
  | ⟨1, _⟩ => show win0_2.index t (1 : Fin 2) * 2048 + 1 * cc.val = o.val; rw [e1, ho]; omega

end Cert.KernelIdeal.Blocks

end
-- ==== Proof.KernelValue.lean ====
/-
  The kernel's result array is the linear layer of the arrays the region finds.

  Output block `(I, J)` is visited twice, at the consecutive grid points `t - 1` (contraction step 0) and `t`
  (contraction step 1, `t` odd), and written back after the second visit only. The first visit leaves in the
  accumulator `0 + (block product of the first 2048 contraction indices)`; the second adds the block product of the
  last 2048 and stores that plus the bias row. At entry `(r, c)` of the block, with `p = 512·I + r` and
  `o = 2048·J + c`, this is
      `((0 + ∑ k < 2048, x (p, k) · w (o, k)) + ∑ k < 2048, x (p, 2048 + k) · w (o, 2048 + k)) + b o`,
  which is `(∑ k < 4096, x (p, k) · w (o, k)) + b o`: the linear layer at `(p, o)`. The 128 blocks written back
  tile the `[8192, 16384]` result, so the whole array is the linear layer.
-/
import proofs.«151897_j51264729645538_1_alg».proof.Proof.Gen.KernelIdeal.Value
import proofs.«151897_j51264729645538_1_alg».proof.Proof.Spec
import proofs.«151897_j51264729645538_1_alg».proof.Proof.BodyValue
import proofs.«151897_j51264729645538_1_alg».proof.Proof.Pieces
import proofs.«151897_j51264729645538_1_alg».proof.Proof.Blocks

noncomputable section

namespace Cert.KernelIdeal.LinearValue

open Cert.KernelIdeal Cert.KernelIdeal.Gen Cert.KernelIdeal.Blocks Cert.PalettizedLinear
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result array: the linear layer of the activations, the dequantized weights and the bias row as the region
    finds them. -/
def result (c : Dev nD) : S8192x16384.Idx → EReal :=
  linear (xarr m c) (warr m c) (fun j => barr m c (ix2 0 (j 0)))

/-! ## The accumulator between the two visits, and what the second visit writes back -/

/-- After a point of contraction step 0 the accumulator holds the zero block plus that point's block product. -/
theorem accumulator_after_step0 (c : Dev nD) (n : ℕ) (hn : n < cfg0.N) (he : n % 2 = 0) :
    (outsAt0 m c n hn).2 = k0_pay2 k0_pay1 (xblk m c ⟨n, hn⟩) (wblk m c ⟨n, hn⟩) := by
  have ho : ¬n % 2 = 1 := by omega
  rw [show outsAt0 m c n hn = _ from outsAt0_A m c ⟨n, hn⟩ he ho]
  dsimp only
  exact Pieces.accumulator_after_first_visit (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) ((hcond0_0 ⟨n, hn⟩).mpr he) (fun h => ho ((hcond0_1 ⟨n, hn⟩).mp h)) (iblk m c 0 ⟨n, hn⟩) (iblk m c 1 ⟨n, hn⟩) (iblk m c 2 ⟨n, hn⟩)

/-- The point before `t`. -/
abbrev before (t : Fin cfg0.N) : Fin cfg0.N := ⟨t.val - 1, Nat.lt_of_le_of_lt (Nat.sub_le _ _) t.isLt⟩

/-- At a point of contraction step 1 the write-back writes two visits' accumulation plus the bias row. -/
theorem flushed_value (c : Dev nD) (t : Fin cfg0.N) (h1 : t.val % 2 = 1) :
    (dats m 0 c).flushed 3 t = (cfg0.win 3).cut (grid0.coords t)
      (k0_pay3 (k0_pay2 (k0_pay2 k0_pay1 (xblk m c (before t)) (wblk m c (before t))) (xblk m c t) (wblk m c t)) (bblk m c t)) := by
  have h0 : ¬t.val % 2 = 0 := by omega
  refine (Value.flushed3_B m c t h0 h1).trans (congrArg ((cfg0.win 3).cut (grid0.coords t)) ?_)
  refine (Pieces.output_after_last_visit (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2).trans ?_
  exact congrArg (fun a : Vec Ideal S512x2048 .f32 => k0_pay3 (F := Ideal) (k0_pay2 a (xblk m c t) (wblk m c t)) (bblk m c t))
    (accumulator_after_step0 m c (t.val - 1) (Nat.lt_of_le_of_lt (Nat.sub_le _ _) t.isLt) (by omega))

/-! ## The block written back is the linear layer's block -/

/-- Entry `(r, cc)` of point `t`'s output block is entry `(512 · (t / 16) + r, 2048 · ((t / 2) % 8) + cc)` of the array. -/
theorem out_index (t : Fin cfg0.N) (r : Fin 512) (cc : Fin 2048) (p : Fin 8192) (o : Fin 16384)
    (hp : p.val = 512 * (t.val / 16) + r.val) (ho : o.val = 2048 * (t.val / 2 % 8) + cc.val) :
    ((cfg0.win 3).blk t).view.emb (ix2 r cc) = ix2 p o := by
  obtain ⟨-, -, -, -, -, -, e0, e1⟩ := index_maps t
  refine funext fun a => Fin.ext ?_
  match a with
  | ⟨0, _⟩ => show win0_3.index t (0 : Fin 2) * 512 + 1 * r.val = p.val; rw [e0, hp]; omega
  | ⟨1, _⟩ => show win0_3.index t (1 : Fin 2) * 2048 + 1 * cc.val = o.val; rw [e1, ho]; omega

/-- WHAT A WRITE-BACK WRITES is its block of the linear layer. -/
theorem flushed_eq (c : Dev nD) (t : Fin cfg0.N) (hf : (cfg0.win 3).flush t = true) :
    (dats m 0 c).flushed 3 t = ((cfg0.win 3).blk t).view.read (Elt Ideal) (result m c) := by
  have h1 : t.val % 2 = 1 := (flush0_3 t).mp hf
  have hN : t.val < 256 := lt_of_lt_of_eq t.isLt N_0
  rw [flushed_value m c t h1]
  refine funext fun (j : S512x2048.Idx) => ?_
  obtain ⟨r, cc, rfl⟩ : ∃ (r : Fin 512) (cc : Fin 2048), j = ix2 r cc := ⟨j 0, j 1, eq_ix2 j⟩
  -- the array entry this block entry is
  have hpb : 512 * (t.val / 16) + r.val < 8192 := by have := r.isLt; omega
  have hob : 2048 * (t.val / 2 % 8) + cc.val < 16384 := by have := cc.isLt; omega
  have hemb := out_index t r cc ⟨512 * (t.val / 16) + r.val, hpb⟩ ⟨2048 * (t.val / 2 % 8) + cc.val, hob⟩ rfl rfl
  show k0_pay3 (F := Ideal) (k0_pay2 (k0_pay2 k0_pay1 (xblk m c (before t)) (wblk m c (before t))) (xblk m c t) (wblk m c t)) (bblk m c t) (ix2 r cc)
    = result m c (((cfg0.win 3).blk t).view.emb (ix2 r cc))
  rw [hemb]
  refine (Body.two_visits_apply (xblk m c (before t)) (xblk m c t) (wblk m c (before t)) (wblk m c t) (bblk m c t) r cc).trans ?_
  -- the two half contractions and the bias entry, as entries of the arrays
  have hbv : (before t).val = t.val - 1 := rfl
  have s0 : (∑ k : Fin 2048, xblk m c (before t) (ix2 r k) * wblk m c (before t) (ix2 cc k))
      = ∑ k : Fin 2048, (fun q : Fin 4096 => xarr m c (ix2 ⟨512 * (t.val / 16) + r.val, hpb⟩ q) * warr m c (ix2 ⟨2048 * (t.val / 2 % 8) + cc.val, hob⟩ q)) ⟨k.val, by omega⟩ :=
    Finset.sum_congr rfl fun k _ => by
      rw [xblk_apply m c (before t) r k ⟨512 * (t.val / 16) + r.val, hpb⟩ ⟨k.val, by omega⟩ (by show 512 * (t.val / 16) + r.val = 512 * ((before t).val / 16) + r.val; rw [hbv]; omega) (by show k.val = 2048 * ((before t).val % 2) + k.val; rw [hbv]; omega),
        wblk_apply m c (before t) cc k ⟨2048 * (t.val / 2 % 8) + cc.val, hob⟩ ⟨k.val, by omega⟩ (by show 2048 * (t.val / 2 % 8) + cc.val = 2048 * ((before t).val / 2 % 8) + cc.val; rw [hbv]; omega) (by show k.val = 2048 * ((before t).val % 2) + k.val; rw [hbv]; omega)]
  have s1 : (∑ k : Fin 2048, xblk m c t (ix2 r k) * wblk m c t (ix2 cc k))
      = ∑ k : Fin 2048, (fun q : Fin 4096 => xarr m c (ix2 ⟨512 * (t.val / 16) + r.val, hpb⟩ q) * warr m c (ix2 ⟨2048 * (t.val / 2 % 8) + cc.val, hob⟩ q)) ⟨2048 + k.val, by omega⟩ :=
    Finset.sum_congr rfl fun k _ => by
      rw [xblk_apply m c t r k ⟨512 * (t.val / 16) + r.val, hpb⟩ ⟨2048 + k.val, by omega⟩ rfl (by show 2048 + k.val = 2048 * (t.val % 2) + k.val; omega),
        wblk_apply m c t cc k ⟨2048 * (t.val / 2 % 8) + cc.val, hob⟩ ⟨2048 + k.val, by omega⟩ rfl (by show 2048 + k.val = 2048 * (t.val % 2) + k.val; omega)]
  have sb : bblk m c t (ix2 0 cc) = barr m c (ix2 0 ⟨2048 * (t.val / 2 % 8) + cc.val, hob⟩) :=
    bblk_apply m c t cc ⟨2048 * (t.val / 2 % 8) + cc.val, hob⟩ rfl
  exact (congrArg₂ (· + ·) (congrArg₂ (· + ·) (congrArg (0 + ·) s0) s1) sb).trans
    (two_block_accumulation (fun q : Fin 4096 => xarr m c (ix2 ⟨512 * (t.val / 16) + r.val, hpb⟩ q) * warr m c (ix2 ⟨2048 * (t.val / 2 % 8) + cc.val, hob⟩ q)) _)

/-! ## The blocks written back tile the result -/

/-- An index of the result is in point `t`'s block iff each coordinate is in the block's range on its axis. -/
theorem mem_out_block (t : Fin cfg0.N) (i : S8192x16384.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v10).slice (win0_3.rect t)).set ↔ _
  rw [View.set_slice_whole, Rect.mem_set_unit]
  exact Iff.rfl

/-- Entry `(p, o)` of the result is written back by the second visit of block `(p / 512, o / 2048)`. -/
theorem covered (i : S8192x16384.Idx) :
    ∃ t : Fin cfg0.N, (cfg0.win 3).flush t = true ∧ i ∈ ((cfg0.win 3).blk t).view.set := by
  have hi0 : (i 0).val < 8192 := (i 0).isLt
  have hi1 : (i 1).val < 16384 := (i 1).isLt
  have hN : cfg0.N = 256 := N_0
  have hlt : ((i 0).val / 512 * 8 + (i 1).val / 2048) * 2 + 1 < cfg0.N := by omega
  obtain ⟨-, -, -, -, -, -, e0, e1⟩ := index_maps ⟨((i 0).val / 512 * 8 + (i 1).val / 2048) * 2 + 1, hlt⟩
  refine ⟨⟨((i 0).val / 512 * 8 + (i 1).val / 2048) * 2 + 1, hlt⟩, (flush0_3 _).mpr (by show (((i 0).val / 512 * 8 + (i 1).val / 2048) * 2 + 1) % 2 = 1; omega), ?_⟩
  rw [mem_out_block]
  intro a
  match a with
  | ⟨0, _⟩ =>
    show win0_3.index ⟨((i 0).val / 512 * 8 + (i 1).val / 2048) * 2 + 1, hlt⟩ (0 : Fin 2) * 512 ≤ (i 0).val ∧ (i 0).val < win0_3.index ⟨((i 0).val / 512 * 8 + (i 1).val / 2048) * 2 + 1, hlt⟩ (0 : Fin 2) * 512 + 512
    rw [e0]; show (((i 0).val / 512 * 8 + (i 1).val / 2048) * 2 + 1) / 16 * 512 ≤ (i 0).val ∧ (i 0).val < (((i 0).val / 512 * 8 + (i 1).val / 2048) * 2 + 1) / 16 * 512 + 512
    omega
  | ⟨1, _⟩ =>
    show win0_3.index ⟨((i 0).val / 512 * 8 + (i 1).val / 2048) * 2 + 1, hlt⟩ (1 : Fin 2) * 2048 ≤ (i 1).val ∧ (i 1).val < win0_3.index ⟨((i 0).val / 512 * 8 + (i 1).val / 2048) * 2 + 1, hlt⟩ (1 : Fin 2) * 2048 + 2048
    rw [e1]; show (((i 0).val / 512 * 8 + (i 1).val / 2048) * 2 + 1) / 2 % 8 * 2048 ≤ (i 1).val ∧ (i 1).val < (((i 0).val / 512 * 8 + (i 1).val / 2048) * 2 + 1) / 2 % 8 * 2048 + 2048
    omega

/-- THE RESULT ARRAY after the run is the linear layer. -/
theorem final (c : Dev nD) : (dats m 0 c).arrAt 3 cfg0.N = result m c :=
  (dats m 0 c).arrAt_eq_of_cover 3 (result m c) (fun t hf => flushed_eq m c t hf) covered

/-! ## In terms of the arguments -/

/-- The linear layer of the arguments: the activations, the table gathered at the wrapped indices, the bias. -/
theorem result_eq (c : Dev nD) : result m c
    = linear (m ((c : Thread nD τ).loc main_arg0))
        (Host.gather gather_S256_S16384x4096x1_S16384x4096_n_0_n_n_0_2_1 (m ((c : Thread nD τ).loc main_arg2))
          (broadcastInDim S16384x4096x1 ![0, 1] bcast_S16384x4096_S16384x4096x1_0_1
            (select (cmpi .slt (m ((c : Thread nD τ).loc main_arg1)) (broadcastInDim S16384x4096 ![] bcast_S_S16384x4096 (constantI S_ 32 0#32)))
              (addi (m ((c : Thread nD τ).loc main_arg1)) (broadcastInDim S16384x4096 ![] bcast_S_S16384x4096 (constantI S_ 32 256#32)))
              (m ((c : Thread nD τ).loc main_arg1)))))
        (m ((c : Thread nD τ).loc main_arg3)) := by
  have eb : (fun j : S16384.Idx => barr m c (ix2 0 (j 0))) = m ((c : Thread nD τ).loc main_arg3) :=
    funext fun j => (barr_apply m c (j 0)).trans (congrArg _ (eq_ix1 j).symm)
  unfold result
  rw [xarr_eq, warr_eq, eb]

/-- The run, read: the result array at the linear layer of the region's arrays, the arguments unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.LinearValue

end
-- ==== Proof.RefSide.lean ====
/-
  The reference's result, read at an index, is the linear layer of its arguments.

  The reference contracts the activations with the dequantized weights over the LAST axis of both
  (`dot_general`, contracting dims [1] × [1]): at `(t, o)` the sum over `k` of `x (t, k) · w (o, k)`. It then
  adds the bias, broadcast first to a row `[1, 16384]` and then down the 8192 rows: at `(t, o)` that is `b o`.
  So the reference's result is `linear x w b` with `w` the gathered table — which stays an opaque array here,
  because the kernel's program builds it with the very same host operations.
-/
import proofs.«151897_j51264729645538_1_alg».proof.Proof.Gen.ReferenceIdeal.Read
import proofs.«151897_j51264729645538_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.PalettizedLinear

/-- The activation the contraction reads for output `(t, o)` and contraction index `k` is `x (t, k)`. -/
theorem lhs_index (i : S8192x16384.Idx) (k : Fin 4096) : lidx_main_v7 i k = ix2 (i 0) k :=
  funext fun a => Fin.ext (by match a with | ⟨0, _⟩ => rfl | ⟨1, _⟩ => rfl)

/-- The weight it reads is `w (o, k)`: the weight matrix is contracted over its last axis. -/
theorem rhs_index (i : S8192x16384.Idx) (k : Fin 4096) : ridx_main_v7 i k = ix2 (i 1) k :=
  funext fun a => Fin.ext (by match a with | ⟨0, _⟩ => rfl | ⟨1, _⟩ => rfl)

/-- Through the two broadcasts, output `(t, o)` reads the bias at `o`. -/
theorem bias_index (i : S8192x16384.Idx) : idx_main_v8 (idx_main_v9 i) = ix1 (i 1) :=
  funext fun a => Fin.ext (by match a with | ⟨0, _⟩ => rfl)

/-- The reference's result is the linear layer of the activations, the gathered weights and the bias. -/
theorem reference_is_linear (x0 : (⟨S8192x4096, .f32⟩ : BufTy).Contents (Elt Ideal))
    (x1 : (⟨S16384x4096, .i32⟩ : BufTy).Contents (Elt Ideal)) (x2 : (⟨S256, .f32⟩ : BufTy).Contents (Elt Ideal))
    (x3 : (⟨S16384, .f32⟩ : BufTy).Contents (Elt Ideal)) :
    val_main_v10 (F := Ideal) x0 x1 x2 x3 = linear x0 (val_main_v6 (F := Ideal) x1 x2) x3 := by
  funext i
  rw [val_main_v10_apply, val_main_v7_apply, val_main_v9_apply, val_main_v8_apply, bias_index]
  simp only [lhs_index, rhs_index, Ideal.addf_def]
  rfl

end Cert.ReferenceIdeal.RefValue

end
-- ==== Proof.lean ====
/-
  A palettized linear layer: `y = x · Wᵀ + b` with `W = table[indices]`, the 256-entry table gathered at a
  `[16384, 4096]` array of indices (a negative index wrapped by the table's length), `x : [8192, 4096]`,
  `b : [16384]`.

  Both programs build `W` with the same host gather. The reference then contracts `x` with `W` over the last axis of
  both and adds the bias broadcast down the rows. The kernel rounds `x` and `W` to bf16 — the identity on the
  extended reals — and tiles the product: a `16 × 8 × 2` grid of `[512, 2048]` output blocks, the contraction axis
  walked in two steps of 2048 into an accumulator that the first step resets and the second step, after adding the
  bias row, stores to the output. So each output entry is
  `((0 + first half of the contraction) + second half) + bias`, and since addition on the extended reals is
  associative and commutative with neutral `0`, that is the whole contraction plus the bias: the reference's entry.
  No finiteness of the inputs is used.

  The three frames: the kernel's two are the generated frame certificates; the reference has no kernel, and its
  frame is its run with the result dropped. The ideal pass rewrote nothing, so `preserves` is `True`.
-/
import proofs.«151897_j51264729645538_1_alg».proof.Defs
import proofs.«151897_j51264729645538_1_alg».proof.Proof.Gen.Kernel
import proofs.«151897_j51264729645538_1_alg».proof.Proof.Gen.Kernel.Skeleton
import proofs.«151897_j51264729645538_1_alg».proof.Proof.Gen.Kernel.Launch
import proofs.«151897_j51264729645538_1_alg».proof.Proof.Gen.Kernel.Points
import proofs.«151897_j51264729645538_1_alg».proof.Proof.Gen.Kernel.Frame
import proofs.«151897_j51264729645538_1_alg».proof.Proof.Gen.KernelIdeal
import proofs.«151897_j51264729645538_1_alg».proof.Proof.Gen.KernelIdeal.Skeleton
import proofs.«151897_j51264729645538_1_alg».proof.Proof.Gen.KernelIdeal.Launch
import proofs.«151897_j51264729645538_1_alg».proof.Proof.Gen.KernelIdeal.Points
import proofs.«151897_j51264729645538_1_alg».proof.Proof.Gen.KernelIdeal.Frame
import proofs.«151897_j51264729645538_1_alg».proof.Proof.Gen.ReferenceIdeal
import proofs.«151897_j51264729645538_1_alg».proof.Proof.Gen.Pre_finite_inputs
import proofs.«151897_j51264729645538_1_alg».proof.Proof.Gen.KernelIdeal.Value
import proofs.«151897_j51264729645538_1_alg».proof.Proof.Gen.ReferenceIdeal.Run
import proofs.«151897_j51264729645538_1_alg».proof.Proof.Gen.ReferenceIdeal.Read
import proofs.«151897_j51264729645538_1_alg».proof.Proof.KernelValue
import proofs.«151897_j51264729645538_1_alg».proof.Proof.RefSide
import Idealize.ShloMosaic.Adequacy
import Idealize.ShloMosaic.Init

noncomputable section

namespace Cert.Proof

open Idealize.ShloMosaic Idealize.SL.Sem

/-- The word-level kernel runs and leaves its arguments unchanged: the generated frame. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is host operations only: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- Both programs end with the linear layer of the arguments in their result array: the kernel by its two-step
    accumulation over the grid, the reference by one contraction; the arguments agree, and the gathered weight
    arrays are the same term of them. -/
theorem algebraic : Cert.algebraic_KernelIdeal_ReferenceIdeal := by
  intro m ρ m' ρ' _ hagree
  refine ⟨fun c => Cert.KernelIdeal.LinearValue.result m c, Cert.KernelIdeal.LinearValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2, Cert.ReferenceIdeal.Read.val_main_v10_eq,
    Cert.ReferenceIdeal.RefValue.reference_is_linear]
  exact (Cert.KernelIdeal.LinearValue.result_eq m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
